-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : FVec F S4096x4096 .f32) (main_arg2 : FVec F S4096x4096 .f32) (main_arg3 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .f32 = 32 ∨ (Rect.block (s := S2048x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x4096.size a
  hwx0_4 : ∀ i : grid0.Coords, EltTy.bits .f32 = 32 ∨ (Rect.block (s := S2048x4096) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S1x4096, .f32⟩
  | .hbm, ⟨12, _⟩ => ⟨S2048x4096, .f32⟩
  | .hbm, ⟨13, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.MaskedSum.lean ====
/-
  The value both programs compute, and the one law of sums that joins their two arrangements.

  With `keep` the weight matrix kept where the mask is nonzero and zero elsewhere, the result at row `r` and
  column `col` is `∑ k, x[r, k] · keep[k, col] + b[col]`, a sum over the 4096 contracted positions. One program
  takes that sum whole; the other takes it as four consecutive stretches of 1024 positions added one after the
  other onto zero. Addition of extended reals is commutative and associative, so the two agree for every input,
  infinite entries included: no finiteness is used.
-/
import Idealize.ShloMosaic.PureOps.Ideal.Laws
import Idealize.ShloMosaic.Lib.ValueIdx

noncomputable section

open scoped BigOperators

namespace Cert.MaskedSum

open Idealize.ShloMosaic Idealize.ShloMosaic.ValueIdx

/-- The weight at a position when the mask there is nonzero, zero otherwise. -/
def keep (mk w : (⟨2, ![4096, 4096]⟩ : Shape).Idx → EReal) : (⟨2, ![4096, 4096]⟩ : Shape).Idx → EReal :=
  fun i => if mk i ≠ 0 then w i else 0

/-- One term of the contraction: position `k` of row `r` of `x` against position `k` of column `col` of the kept
    weights. Stated over every natural `k` (zero past the end) so that stretches of the sum can be named by
    their starting position without carrying bounds. -/
def term (x : (⟨2, ![2048, 4096]⟩ : Shape).Idx → EReal) (mk w : (⟨2, ![4096, 4096]⟩ : Shape).Idx → EReal)
    (r : Fin 2048) (col : Fin 4096) (k : ℕ) : EReal :=
  if h : k < 4096 then x (ix2 r ⟨k, h⟩) * keep mk w (ix2 ⟨k, h⟩ col) else 0

/-- The result at row `r`, column `col`: the whole contraction, then the bias of the column. -/
def entry (x : (⟨2, ![2048, 4096]⟩ : Shape).Idx → EReal) (mk w : (⟨2, ![4096, 4096]⟩ : Shape).Idx → EReal)
    (b : (⟨1, ![4096]⟩ : Shape).Idx → EReal) (r : Fin 2048) (col : Fin 4096) : EReal :=
  (∑ k : Fin 4096, x (ix2 r k) * keep mk w (ix2 k col)) + b (ix1 col)

/-- The whole result array. -/
def dense (x : (⟨2, ![2048, 4096]⟩ : Shape).Idx → EReal) (mk w : (⟨2, ![4096, 4096]⟩ : Shape).Idx → EReal)
    (b : (⟨1, ![4096]⟩ : Shape).Idx → EReal) : (⟨2, ![2048, 4096]⟩ : Shape).Idx → EReal :=
  fun i => entry x mk w b (i 0) (i 1)

/-- Choosing `v` where `a` differs from zero and zero elsewhere: the comparison "not equal", in its ordered or its
    unordered spelling, is one test on the extended reals, which have no unordered pair. -/
theorem select_ne_zero (p : CmpFPredicate) (hp : p = .one ∨ p = .une) (a v : EReal) :
    Scalar.select (Ideal.cmp p a 0) v 0 = if a ≠ 0 then v else 0 := by
  have hc : Ideal.cmp p a 0 = BitVec.ofBool (decide (a ≠ 0)) := by rcases hp with rfl | rfl <;> rfl
  rw [hc]
  by_cases h : a ≠ 0
  · rw [if_pos h, decide_eq_true h]; exact select_one _ _
  · rw [if_neg h, decide_eq_false h]; exact select_zero _ _

theorem dense_apply (x : (⟨2, ![2048, 4096]⟩ : Shape).Idx → EReal) (mk w : (⟨2, ![4096, 4096]⟩ : Shape).Idx → EReal)
    (b : (⟨1, ![4096]⟩ : Shape).Idx → EReal) (r : Fin 2048) (col : Fin 4096) :
    dense x mk w b (ix2 r col) = entry x mk w b r col := rfl

/-- A sum over the first `n · len` naturals is the sum, over `n` consecutive stretches of length `len`, of each
    stretch's sum. -/
theorem sum_range_stretches {β : Type*} [AddCommMonoid β] (f : ℕ → β) (len : ℕ) :
    ∀ n : ℕ, ∑ k ∈ Finset.range (n * len), f k = ∑ s ∈ Finset.range n, ∑ c ∈ Finset.range len, f (len * s + c)
  | 0 => by simp
  | n + 1 => by
    rw [Nat.succ_mul, Finset.sum_range_add, sum_range_stretches f len n, Finset.sum_range_succ, Nat.mul_comm len n]

/-- The contraction over all 4096 positions is the sum of its four stretches of 1024. -/
theorem sum_four_stretches (x : (⟨2, ![2048, 4096]⟩ : Shape).Idx → EReal) (mk w : (⟨2, ![4096, 4096]⟩ : Shape).Idx → EReal)
    (r : Fin 2048) (col : Fin 4096) :
    ∑ k : Fin 4096, x (ix2 r k) * keep mk w (ix2 k col)
      = ∑ s ∈ Finset.range 4, ∑ c : Fin 1024, term x mk w r col (1024 * s + c.val) := by
  have hterm : ∀ k : Fin 4096, x (ix2 r k) * keep mk w (ix2 k col) = term x mk w r col k.val := fun k => by
    unfold term; rw [dif_pos k.isLt]
  have hin : ∀ s : ℕ, ∑ c : Fin 1024, term x mk w r col (1024 * s + c.val)
      = ∑ c ∈ Finset.range 1024, term x mk w r col (1024 * s + c) := fun s =>
    Fin.sum_univ_eq_sum_range (fun c => term x mk w r col (1024 * s + c)) 1024
  simp only [hterm, hin]
  rw [Fin.sum_univ_eq_sum_range (term x mk w r col) 4096]
  exact sum_range_stretches (term x mk w r col) 1024 4

end Cert.MaskedSum

end
-- ==== Proof.RefIsSpec.lean ====
/-
  The reference's result is the masked dense layer of `MaskedSum`: it compares the mask with a zero splat,
  selects the weight or a zero splat, contracts `x`'s columns against the kept weights' rows in one product, and
  adds the bias broadcast along the rows. Read at row `r`, column `col` that is `entry`.
-/
import proofs.«137590_j68899865362757_1_alg».proof.Proof.Gen.ReferenceIdeal.Read
import proofs.«137590_j68899865362757_1_alg».proof.Proof.MaskedSum

noncomputable section

open scoped BigOperators

namespace Cert.ReferenceIdeal.RefValue

open Cert.ReferenceIdeal Cert.ReferenceIdeal.Read Idealize.ShloMosaic Idealize.ShloMosaic.ValueIdx Cert.MaskedSum

/-- The selected weights are the kept weights, position by position. -/
theorem kept (x1 x2 : (⟨S4096x4096, .f32⟩ : BufTy).Contents (Elt Ideal)) (i : S4096x4096.Idx) :
    val_main_v2 (F := Ideal) x1 x2 i = keep x1 x2 i := by
  rw [val_main_v2_apply, val_main_v1_apply, val_main_v0_apply, val_main_call0_v0_apply, val_main_cst_apply,
    val_main_cst_0_apply]
  simp only [Ideal.cmpf_def, Ideal.ofBits_def, Ideal.ofBits_zero_f32]
  exact select_ne_zero .une (Or.inr rfl) _ _

/-- The reference's last stage is the masked dense layer. -/
theorem ref_is_dense (x0 : (⟨S2048x4096, .f32⟩ : BufTy).Contents (Elt Ideal))
    (x1 x2 : (⟨S4096x4096, .f32⟩ : BufTy).Contents (Elt Ideal)) (x3 : (⟨S4096, .f32⟩ : BufTy).Contents (Elt Ideal)) :
    val_main_v6 (F := Ideal) x0 x1 x2 x3 = dense x0 x1 x2 x3 := by
  funext i
  obtain ⟨r, col, rfl⟩ : ∃ (r : Fin 2048) (col : Fin 4096), i = ix2 r col := ⟨i 0, i 1, eq_ix2 i⟩
  rw [val_main_v6_apply, val_main_v3_apply, val_main_v5_apply, val_main_v4_apply, dense_apply]
  have hl : ∀ k : Fin 4096, lidx_main_v3 (ix2 r col) k = ix2 r k := fun k =>
    funext fun a => Fin.ext (by match a with | ⟨0, _⟩ => rfl | ⟨1, _⟩ => rfl)
  have hr : ∀ k : Fin 4096, ridx_main_v3 (ix2 r col) k = ix2 k col := fun k =>
    funext fun a => Fin.ext (by match a with | ⟨0, _⟩ => rfl | ⟨1, _⟩ => rfl)
  have hb : idx_main_v4 (idx_main_v5 (ix2 r col)) = ix1 col :=
    funext fun a => Fin.ext (by match a with | ⟨0, _⟩ => rfl)
  simp only [hl, hr, hb, kept, Ideal.addf_def]
  rfl

end Cert.ReferenceIdeal.RefValue

end
-- ==== Proof.Pieces.lean ====
/-
  What the body leaves, case by case, as pure functions of the blocks it loads.

  The body has three ways through its two conditionals, by the position `k` along the contracted grid axis.
  At `k = 0` it first stores the zero splat into the accumulator and then stores accumulator-plus-product, so the
  accumulator ends at the product added onto the zero splat. At `k = 1, 2` it stores accumulator-plus-product over
  what the step before left. At `k = 3` it does the same and then stores accumulator-plus-bias into the output
  block. Each store covers its whole buffer, so the last store into a buffer is what the buffer holds, and a load
  after a store reads that store's value.
-/
import proofs.«137590_j68899865362757_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- Both offsets of a whole-buffer rectangle are zero. -/
theorem hz : (![0, 0] : Fin 2 → ℕ) = fun _ => 0 :=
  funext fun a => by match a with | ⟨0, _⟩ => rfl | ⟨1, _⟩ => rfl

/-- First step of a run: the accumulator ends at the product added onto the zero splat. -/
theorem acc_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S1024x1024 .f32) (x2 : Vec F S1024x1024 .f32) (x3 : Vec F S1x1024 .f32) :
    sout0_A_0 c i arg3 harg3 arg4 harg4 arg5 harg5 arg6 harg6 arg7 harg7 arg8 harg8 hc0 hc1 x0 x1 x2 x3 = k0_pay2 x1 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz]
  simp only [View.readAt_eq_ld, harg3.read_unread, harg4.read_unread, harg5.read_unread, harg6.read_unread,
    View.ld_unit_zero (S := S512x1024) hz, View.ld_unit_zero (S := S1024x1024) hz,
    View.readCov_unit_zero (S := S512x1024) _ hz]

/-- A middle step: the accumulator ends at the product added onto what the step before left. -/
theorem acc_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S1024x1024 .f32) (x2 : Vec F S1024x1024 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S512x1024) hz]
  simp only [View.readAt_eq_ld, harg3.read_unread, harg4.read_unread, harg5.read_unread, harg6.read_unread, harg8.read_unread,
    View.ld_unit_zero (S := S512x1024) hz, View.ld_unit_zero (S := S1024x1024) hz]

/-- The last step: the accumulator, as at a middle step. -/
theorem acc_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x1024) hz]
  simp only [View.readAt_eq_ld, harg3.read_unread, harg4.read_unread, harg5.read_unread, harg6.read_unread, harg8.read_unread,
    View.ld_unit_zero (S := S512x1024) hz, View.ld_unit_zero (S := S1024x1024) hz]

/-- The last step: the output block is the bias row added onto the accumulator that step leaves. -/
theorem out_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay3 (k0_pay2 x1 x2 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x1024) hz]
  simp only [View.readAt_eq_ld, harg3.read_unread, harg4.read_unread, harg5.read_unread, harg6.read_unread, harg8.read_unread,
    View.ld_unit_zero (S := S512x1024) hz, View.ld_unit_zero (S := S1024x1024) hz, View.ld_unit_zero (S := S1x1024) hz,
    View.readCov_unit_zero (S := S512x1024) _ hz]

end Cert.KernelIdeal.Pieces

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.PointValue.lean ====
/-
  The body's three stored values read at one position of a block, at the ideal values.

  At row `p`, column `q` of a 512 × 1024 block: the reset value is zero; the accumulate step adds, onto the
  accumulator's entry, the sum over the 1024 contracted positions `c` of the `x` block's `(p, c)` entry times the
  weight block's `(c, q)` entry where the mask block's `(c, q)` entry is nonzero (and times zero where it is
  zero); the final step adds the bias block's entry of column `q`. Rounding an operand to a narrower format is the
  identity on the ideal values, so the product is taken of the entries themselves.
-/
import proofs.«137590_j68899865362757_1_alg».proof.Proof.Gen.KernelIdeal.Skeleton
import proofs.«137590_j68899865362757_1_alg».proof.Proof.LibMatmulAt
import proofs.«137590_j68899865362757_1_alg».proof.Proof.MaskedSum
import Idealize.ShloMosaic.Lib.Pipeline.Value
import Idealize.ShloMosaic.Lib.ValueIdx

noncomputable section

open scoped BigOperators

namespace Cert.KernelIdeal.PointValue

open Cert.KernelIdeal Cert.KernelIdeal.Gen Idealize.ShloMosaic Idealize.ShloMosaic.ValueIdx Cert.MaskedSum

/-- The reset value is zero everywhere. -/
theorem zero_at (p : Fin 512) (q : Fin 1024) : k0_pay1 (F := Ideal) (ix2 p q) = 0 := by
  unfold k0_pay1
  refine (congrFun (shapeCast_self _ _) (ix2 p q)).trans ?_
  exact Ideal.ofBits_zero_f32

/-- The accumulate step at `(p, q)`: the accumulator's entry plus the block's masked product there. -/
theorem step_at (mkb wb : Vec Ideal S1024x1024 .f32) (xb acc : Vec Ideal S512x1024 .f32) (p : Fin 512) (q : Fin 1024) :
    k0_pay2 (F := Ideal) mkb wb xb acc (ix2 p q)
      = acc (ix2 p q) + ∑ c : Fin 1024, xb (ix2 p c) * (if mkb (ix2 c q) ≠ 0 then wb (ix2 c q) else 0) := by
  unfold k0_pay2
  refine (congrFun (shapeCast_self _ _) (ix2 p q)).trans ?_
  refine (addf_apply _ _ _).trans ?_
  refine congrArg (acc (ix2 p q) + ·) ?_
  refine (Cert.LibMatmulAt.matmul_zero_at dot_S512x1024_S1024x1024_S512x1024_1_0_0_1_n_n rfl rfl rfl rfl rfl rfl none _ _ p q).trans ?_
  refine Finset.sum_congr rfl fun c _ => ?_
  refine congrArg (xb (ix2 p c) * ·) ?_
  show Scalar.select (Ideal.cmp .one (mkb (ix2 c q)) (Ideal.ofBits .f32 0x00000000#32)) (wb (ix2 c q))
    (Ideal.ofBits .f32 0x00000000#32) = _
  rw [Ideal.ofBits_zero_f32]
  exact select_ne_zero .one (Or.inl rfl) _ _

/-- The final step at `(p, q)`: the accumulator's entry plus the bias of column `q`. -/
theorem bias_at (acc : Vec Ideal S512x1024 .f32) (bb : Vec Ideal S1x1024 .f32) (p : Fin 512) (q : Fin 1024) :
    k0_pay3 (F := Ideal) acc bb (ix2 p q) = acc (ix2 p q) + bb (ix2 0 q) := by
  unfold k0_pay3
  refine (addf_apply _ _ _).trans ?_
  refine congrArg (acc (ix2 p q) + ·) ?_
  refine (broadcastTo_apply _ _ (ix2 p q) (ix2 0 q) (fun a => by
    match a with
    | ⟨0, _⟩ => rfl
    | ⟨1, _⟩ => rfl)).trans ?_
  exact congrFun (shapeCast_self _ _) (ix2 0 q)

end Cert.KernelIdeal.PointValue

end
-- ==== Proof.BlockRead.lean ====
/-
  Where each window's block sits in its array.

  The grid has 4 × 4 × 4 points, the last axis fastest: point `t` is row tile `t / 16`, column tile `t / 4 % 4`,
  contraction stretch `t % 4`. The `x` block there is rows `512·(t/16) …` and columns `1024·(t%4) …`; the mask
  and weight blocks are rows `1024·(t%4) …` and columns `1024·(t/4%4) …`; the bias block is columns
  `1024·(t/4%4) …` of the one-row array that the host's reshape makes of the bias vector; the output block is
  rows `512·(t/16) …`, columns `1024·(t/4%4) …`. A block's entry at local coordinates is the array's entry at
  block index × block size + local coordinate, axis by axis.
-/
import proofs.«137590_j68899865362757_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.BlockRead

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The arrays as the region finds them, and the blocks of a point, at their literal types. -/
abbrev xarr (c : Dev nD) : Vec Ideal S2048x4096 .f32 := V m c main_arg0
abbrev karr (c : Dev nD) : Vec Ideal S4096x4096 .f32 := V m c main_arg1
abbrev warr (c : Dev nD) : Vec Ideal S4096x4096 .f32 := V m c main_arg2
abbrev brow (c : Dev nD) : Vec Ideal S1x4096 .f32 := V m c main_v0
abbrev xblk (c : Dev nD) (t : Fin cfg0.N) : Vec Ideal S512x1024 .f32 := iblk m c 0 t
abbrev kblk (c : Dev nD) (t : Fin cfg0.N) : Vec Ideal S1024x1024 .f32 := iblk m c 1 t
abbrev wblk (c : Dev nD) (t : Fin cfg0.N) : Vec Ideal S1024x1024 .f32 := iblk m c 2 t
abbrev bblk (c : Dev nD) (t : Fin cfg0.N) : Vec Ideal S1x1024 .f32 := iblk m c 3 t

theorem point_lt (t : Fin cfg0.N) : t.val < 64 := lt_of_lt_of_eq t.isLt (show cfg0.N = 64 from N_0)

/-- The block index of every window at every point, decided over the 64 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = t.val / 4 % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-- The `x` block's entry is `x`'s entry at the tile's rows and the stretch's columns. -/
theorem xblk_at (c : Dev nD) (t : Fin cfg0.N) (p : Fin 512) (cc : Fin 1024) (r : Fin 2048) (k : Fin 4096)
    (hr : r.val = 512 * (t.val / 16) + p.val) (hk : k.val = 1024 * (t.val % 4) + cc.val) :
    xblk m c t (ix2 p cc) = xarr m c (ix2 r k) := by
  obtain ⟨e0, e1, -⟩ := idx_facts t
  show V m c main_arg0 (((cfg0.win 0).blk t).view.emb (ix2 p cc)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * cc.val = k.val; omega

/-- The mask block's entry is the mask's entry at the stretch's rows and the tile's columns. -/
theorem kblk_at (c : Dev nD) (t : Fin cfg0.N) (cc q : Fin 1024) (k col : Fin 4096)
    (hk : k.val = 1024 * (t.val % 4) + cc.val) (hcol : col.val = 1024 * (t.val / 4 % 4) + q.val) :
    kblk m c t (ix2 cc q) = karr m c (ix2 k col) := by
  obtain ⟨-, -, e0, e1, -⟩ := idx_facts t
  show V m c main_arg1 (((cfg0.win 1).blk t).view.emb (ix2 cc q)) = V m c main_arg1 (ix2 k col)
  refine congrArg _ (funext fun a => Fin.ext ?_)
  match a with
  | ⟨0, _⟩ => show win0_1.index t (0 : Fin 2) * 1024 + 1 * cc.val = k.val; omega
  | ⟨1, _⟩ => show win0_1.index t (1 : Fin 2) * 1024 + 1 * q.val = col.val; omega

/-- The weight block's entry, likewise. -/
theorem wblk_at (c : Dev nD) (t : Fin cfg0.N) (cc q : Fin 1024) (k col : Fin 4096)
    (hk : k.val = 1024 * (t.val % 4) + cc.val) (hcol : col.val = 1024 * (t.val / 4 % 4) + q.val) :
    wblk m c t (ix2 cc q) = warr m c (ix2 k col) := by
  obtain ⟨-, -, -, -, e0, e1, -⟩ := idx_facts t
  show V m c main_arg2 (((cfg0.win 2).blk t).view.emb (ix2 cc q)) = V m c main_arg2 (ix2 k col)
  refine congrArg _ (funext fun a => Fin.ext ?_)
  match a with
  | ⟨0, _⟩ => show win0_2.index t (0 : Fin 2) * 1024 + 1 * cc.val = k.val; omega
  | ⟨1, _⟩ => show win0_2.index t (1 : Fin 2) * 1024 + 1 * q.val = col.val; omega

/-- The bias block's entry is the one-row bias array's entry at the tile's columns. -/
theorem bblk_at (c : Dev nD) (t : Fin cfg0.N) (q : Fin 1024) (col : Fin 4096)
    (hcol : col.val = 1024 * (t.val / 4 % 4) + q.val) :
    bblk m c t (ix2 0 q) = brow m c (ix2 0 col) := by
  obtain ⟨-, -, -, -, -, -, e0, e1, -⟩ := idx_facts t
  show V m c main_v0 (((cfg0.win 3).blk t).view.emb (ix2 0 q)) = V m c main_v0 (ix2 0 col)
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = col.val; omega

/-- The three arrays the windows stage unchanged are the arguments as launched. -/
theorem xarr_eq (c : Dev nD) : xarr m c = m ((c : Thread nD τ).loc main_arg0) := V_main_arg0 m c
theorem karr_eq (c : Dev nD) : karr m c = m ((c : Thread nD τ).loc main_arg1) := V_main_arg1 m c
theorem warr_eq (c : Dev nD) : warr m c = m ((c : Thread nD τ).loc main_arg2) := V_main_arg2 m c

/-- The one-row bias array is the host's reshape of the bias vector. -/
theorem brow_eq (c : Dev nD) :
    (V m c main_v0 : S1x4096.Idx → EReal)
      = shapeCast S1x4096 (m ((c : Thread nD τ).loc main_arg3)) shapeCasts_S4096_S1x4096 := by
  dsimp only [Gen.V, Gen.hostOps0]; after_results; rfl

/-- Its entry of column `col` is the bias vector's entry `col`. -/
theorem brow_at (c : Dev nD) (col : Fin 4096) :
    brow m c (ix2 0 col) = m ((c : Thread nD τ).loc main_arg3) (ix1 col) := by
  show (V m c main_v0 : S1x4096.Idx → EReal) (ix2 0 col) = _
  rw [brow_eq]
  refine shapeCast_apply _ _ (ix2 0 col) (ix1 col) ?_
  rw [Shape.rowMajor_val_one, Shape.rowMajor_val_two]
  show col.val = 0 * 4096 + col.val
  omega

end Cert.KernelIdeal.BlockRead

end
-- ==== Proof.Accum.lean ====
/-
  What the accumulator holds along a run of four points, and what the last of them writes back.

  A run is four consecutive points `4·u, 4·u + 1, 4·u + 2, 4·u + 3`: one output tile, the contraction's four
  stretches in order. The first point leaves zero plus its stretch's masked product; each later point adds its own
  stretch's product; so after the last the accumulator holds zero plus the sum of the four products, and the block
  written back is that plus the bias. Each stretch's product, read through the blocks' positions in the arrays, is the
  stretch's part of the contraction over all 4096 positions.
-/
import proofs.«137590_j68899865362757_1_alg».proof.Proof.Gen.KernelIdeal.Value
import proofs.«137590_j68899865362757_1_alg».proof.Proof.Pieces
import proofs.«137590_j68899865362757_1_alg».proof.Proof.PointValue
import proofs.«137590_j68899865362757_1_alg».proof.Proof.BlockRead
import proofs.«137590_j68899865362757_1_alg».proof.Proof.MaskedSum

set_option maxRecDepth 16384

noncomputable section

open scoped BigOperators

namespace Cert.KernelIdeal.Accum

open Cert.KernelIdeal Cert.KernelIdeal.Gen Cert.KernelIdeal.Value Cert.KernelIdeal.Pieces Cert.KernelIdeal.PointValue
open Cert.KernelIdeal.BlockRead Cert.MaskedSum
open Idealize.ShloMosaic Idealize.ShloMosaic.TcCoe Idealize.ShloMosaic.ValueIdx Idealize.SL.Sem

variable (m : (ℓ : Loc nD τ sig) → Buf (Elt Ideal) ℓ)

/-- The masked product of point `n`'s blocks at row `p`, column `q` (zero past the grid's last point). -/
def blockProd (c : Dev nD) (n : ℕ) (p : Fin 512) (q : Fin 1024) : EReal :=
  if h : n < cfg0.N then
    ∑ cc : Fin 1024, xblk m c ⟨n, h⟩ (ix2 p cc) * (if kblk m c ⟨n, h⟩ (ix2 cc q) ≠ 0 then wblk m c ⟨n, h⟩ (ix2 cc q) else 0)
  else 0

/-- At the first point of a run the accumulator is stored from the zero splat, whatever it held. -/
theorem step_reset (c : Dev nD) (n : ℕ) (hb : n < cfg0.N) (h0 : n % 4 = 0) (acc : Vec Ideal S512x1024 .f32) :
    scAt0_0 m c n hb acc
      = k0_pay2 (kblk m c (⟨n, hb⟩ : Fin cfg0.N)) (wblk m c (⟨n, hb⟩ : Fin cfg0.N)) (xblk m c (⟨n, hb⟩ : Fin cfg0.N)) (k0_pay1 (F := Ideal)) := by
  have h1 : ¬n % 4 = 3 := by omega
  unfold scAt0_0
  rw [dif_pos h0, dif_neg h1]
  exact acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every other point it is stored from what the point before left. -/
theorem step_add (c : Dev nD) (n : ℕ) (hb : n < cfg0.N) (h0 : ¬n % 4 = 0) (acc : Vec Ideal S512x1024 .f32) :
    scAt0_0 m c n hb acc = k0_pay2 (kblk m c (⟨n, hb⟩ : Fin cfg0.N)) (wblk m c (⟨n, hb⟩ : Fin cfg0.N)) (xblk m c (⟨n, hb⟩ : Fin cfg0.N)) acc := by
  unfold scAt0_0
  rw [dif_neg h0]
  by_cases h1 : n % 4 = 3
  · rw [dif_pos h1]
    exact acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h1]
    exact acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- The first point's accumulator at `(p, q)`: zero plus the point's product. -/
theorem step_reset_at (c : Dev nD) (n : ℕ) (hb : n < cfg0.N) (h0 : n % 4 = 0) (acc : Vec Ideal S512x1024 .f32)
    (p : Fin 512) (q : Fin 1024) : scAt0_0 m c n hb acc (ix2 p q) = 0 + blockProd m c n p q := by
  rw [step_reset m c n hb h0 acc]
  refine (step_at (kblk m c (⟨n, hb⟩ : Fin cfg0.N)) (wblk m c (⟨n, hb⟩ : Fin cfg0.N)) (xblk m c (⟨n, hb⟩ : Fin cfg0.N)) (k0_pay1 (F := Ideal)) p q).trans ?_
  rw [zero_at p q]
  unfold blockProd
  rw [dif_pos hb]

/-- A later point's accumulator at `(p, q)`: the entry before plus the point's product. -/
theorem step_add_at (c : Dev nD) (n : ℕ) (hb : n < cfg0.N) (h0 : ¬n % 4 = 0) (acc : Vec Ideal S512x1024 .f32)
    (p : Fin 512) (q : Fin 1024) : scAt0_0 m c n hb acc (ix2 p q) = acc (ix2 p q) + blockProd m c n p q := by
  rw [step_add m c n hb h0 acc]
  refine (step_at (kblk m c (⟨n, hb⟩ : Fin cfg0.N)) (wblk m c (⟨n, hb⟩ : Fin cfg0.N)) (xblk m c (⟨n, hb⟩ : Fin cfg0.N)) acc p q).trans ?_
  unfold blockProd
  rw [dif_pos hb]

/-- After the last point of a run the accumulator holds zero plus the four points' products. -/
theorem scratch_at (c : Dev nD) (t : Fin cfg0.N) (h3 : t.val % 4 = 3) (p : Fin 512) (q : Fin 1024) :
    (outsAt0 m c t.val t.isLt).2 (ix2 p q) = 0 + ∑ s ∈ Finset.range 4, blockProd m c (4 * (t.val / 4) + s) p q := by
  have hN := point_lt t
  rw [soutsAt0_0_eq m c t]
  have key := Pipeline.accAt_add_apply (N := cfg0.N) (ι := S512x1024.Idx) (β := EReal)
    (fun n h => scAt0_0 m c n h (VS0_0.read (Elt Ideal) VS0_0.junk)) (scAt0_0 m c) (fun _ => 0)
    (fun n i => blockProd m c n (i 0) (i 1)) (4 * (t.val / 4)) 3
    (fun h i => by
      obtain ⟨p', q', rfl⟩ : ∃ (p' : Fin 512) (q' : Fin 1024), i = ix2 p' q' := ⟨i 0, i 1, eq_ix2 i⟩
      exact step_reset_at m c _ h (by omega) _ p' q')
    (fun n h acc i hlo hhi => by
      obtain ⟨p', q', rfl⟩ : ∃ (p' : Fin 512) (q' : Fin 1024), i = ix2 p' q' := ⟨i 0, i 1, eq_ix2 i⟩
      exact step_add_at m c n h (by omega) acc p' q')
    (t.val % 4) (by omega) (by omega) (ix2 p q)
  exact key.trans (by rw [h3])

/-- At the last point of a run the output block is the bias row added onto that accumulator. -/
theorem out_eq (c : Dev nD) (t : Fin cfg0.N) (h3 : t.val % 4 = 3) :
    (outsAt0 m c t.val t.isLt).1 = k0_pay3 ((outsAt0 m c t.val t.isLt).2) (bblk m c t) := by
  have h0 : ¬t.val % 4 = 0 := by omega
  rw [outsAt0_C m c t h0 h3]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) _).trans
    (congrArg (fun z => k0_pay3 z (bblk m c t))
      (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) _).symm)

/-- What the last point of a run writes back, at `(p, q)`. -/
theorem out_at (c : Dev nD) (t : Fin cfg0.N) (h3 : t.val % 4 = 3) (p : Fin 512) (q : Fin 1024) :
    (outsAt0 m c t.val t.isLt).1 (ix2 p q)
      = (0 + ∑ s ∈ Finset.range 4, blockProd m c (4 * (t.val / 4) + s) p q) + bblk m c t (ix2 0 q) := by
  rw [out_eq m c t h3]
  refine (bias_at ((outsAt0 m c t.val t.isLt).2) (bblk m c t) p q).trans ?_
  rw [scratch_at m c t h3 p q]

/-- Stretch `s` of a run: its point's product is the stretch's part of the contraction of row `r` of `x` against
    column `col` of the kept weights, for the row and column the output tile puts at `(p, q)`. -/
theorem blockProd_eq (c : Dev nD) (t : Fin cfg0.N) (s : ℕ) (hs : s < 4) (p : Fin 512) (q : Fin 1024)
    (r : Fin 2048) (col : Fin 4096) (hr : r.val = 512 * (t.val / 16) + p.val)
    (hcol : col.val = 1024 * (t.val / 4 % 4) + q.val) :
    blockProd m c (4 * (t.val / 4) + s) p q
      = ∑ cc : Fin 1024, term (m ((c : Thread nD τ).loc main_arg0)) (m ((c : Thread nD τ).loc main_arg1))
          (m ((c : Thread nD τ).loc main_arg2)) r col (1024 * s + cc.val) := by
  have hN := point_lt t
  have hn : 4 * (t.val / 4) + s < cfg0.N :=
    lt_of_lt_of_eq (by omega : 4 * (t.val / 4) + s < 64) (show cfg0.N = 64 from N_0).symm
  unfold blockProd
  rw [dif_pos hn]
  refine Finset.sum_congr rfl fun cc _ => ?_
  have hk : 1024 * s + cc.val < 4096 := by have := cc.isLt; omega
  unfold term
  rw [dif_pos hk]
  rw [xblk_at m c ⟨4 * (t.val / 4) + s, hn⟩ p cc r ⟨1024 * s + cc.val, hk⟩ (by show r.val = 512 * ((4 * (t.val / 4) + s) / 16) + p.val; omega)
      (by show 1024 * s + cc.val = 1024 * ((4 * (t.val / 4) + s) % 4) + cc.val; omega),
    kblk_at m c ⟨4 * (t.val / 4) + s, hn⟩ cc q ⟨1024 * s + cc.val, hk⟩ col
      (by show 1024 * s + cc.val = 1024 * ((4 * (t.val / 4) + s) % 4) + cc.val; omega)
      (by show col.val = 1024 * ((4 * (t.val / 4) + s) / 4 % 4) + q.val; omega),
    wblk_at m c ⟨4 * (t.val / 4) + s, hn⟩ cc q ⟨1024 * s + cc.val, hk⟩ col
      (by show 1024 * s + cc.val = 1024 * ((4 * (t.val / 4) + s) % 4) + cc.val; omega)
      (by show col.val = 1024 * ((4 * (t.val / 4) + s) / 4 % 4) + q.val; omega),
    xarr_eq, karr_eq, warr_eq]
  rfl

end Cert.KernelIdeal.Accum

end
-- ==== Proof.Final.lean ====
/-
  The whole result array, and the run.

  The output window writes its block back at the last point of each run of four, and there the block is the masked
  dense layer's rows `512·(t/16) …` and columns `1024·(t/4%4) …`: zero plus the four stretches' products is the whole
  contraction, and the bias block's entry is the bias of the column. The sixteen output tiles are the blocks of the
  sixteen runs' last points and fill the array, so after the run the array is the masked dense layer of the arguments.
-/
import proofs.«137590_j68899865362757_1_alg».proof.Proof.Accum

set_option maxRecDepth 16384

noncomputable section

open scoped BigOperators

namespace Cert.KernelIdeal.Final

open Cert.KernelIdeal Cert.KernelIdeal.Gen Cert.KernelIdeal.Value Cert.KernelIdeal.BlockRead Cert.KernelIdeal.Accum
open Cert.MaskedSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The masked dense layer of the arguments as launched. -/
abbrev result (c : Dev nD) : S2048x4096.Idx → EReal :=
  dense (m ((c : Thread nD τ).loc main_arg0)) (m ((c : Thread nD τ).loc main_arg1))
    (m ((c : Thread nD τ).loc main_arg2)) (m ((c : Thread nD τ).loc main_arg3))

/-- What a point that writes back writes is its block of the masked dense layer. -/
theorem flushed_eq (c : Dev nD) (t : Fin cfg0.N) (hf : (cfg0.win 4).flush t = true) :
    (dats m 0 c).flushed 4 t = ((cfg0.win 4).blk t).view.read (Elt Ideal) (result m c) := by
  have h3 := (flush0_4 t).mp hf
  have hN := point_lt t
  obtain ⟨-, -, -, -, -, -, -, -, e0, e1⟩ := idx_facts t
  rw [flushed4]
  show ((outsAt0 m c t.val t.isLt).1 : Vec Ideal S512x1024 .f32)
    = fun y : S512x1024.Idx => result m c (((cfg0.win 4).blk t).view.emb y)
  funext y
  obtain ⟨p, q, rfl⟩ : ∃ (p : Fin 512) (q : Fin 1024), y = ix2 p q := ⟨y 0, y 1, eq_ix2 y⟩
  have hp := p.isLt
  have hq := q.isLt
  have hemb : ((cfg0.win 4).blk t).view.emb (ix2 p q)
      = ix2 (⟨512 * (t.val / 16) + p.val, by omega⟩ : Fin 2048) (⟨1024 * (t.val / 4 % 4) + q.val, by omega⟩ : Fin 4096) :=
    funext fun a => Fin.ext (by
      match a with
      | ⟨0, _⟩ => show win0_4.index t (0 : Fin 2) * 512 + 1 * p.val = 512 * (t.val / 16) + p.val; omega
      | ⟨1, _⟩ => show win0_4.index t (1 : Fin 2) * 1024 + 1 * q.val = 1024 * (t.val / 4 % 4) + q.val; omega)
  show _ = result m c (((cfg0.win 4).blk t).view.emb (ix2 p q))
  rw [hemb, out_at m c t h3 p q]
  show _ = entry (m ((c : Thread nD τ).loc main_arg0)) (m ((c : Thread nD τ).loc main_arg1))
    (m ((c : Thread nD τ).loc main_arg2)) (m ((c : Thread nD τ).loc main_arg3))
    (⟨512 * (t.val / 16) + p.val, by omega⟩ : Fin 2048) (⟨1024 * (t.val / 4 % 4) + q.val, by omega⟩ : Fin 4096)
  unfold entry
  rw [sum_four_stretches, zero_add]
  congr 1
  · exact Finset.sum_congr rfl fun s hs => blockProd_eq m c t s (Finset.mem_range.mp hs) p q _ _ rfl rfl
  · rw [bblk_at m c t q ⟨1024 * (t.val / 4 % 4) + q.val, by omega⟩ rfl]
    exact brow_at m c _

/-- An index of the array is in a point's output block iff each coordinate is in the block's range on its axis. -/
theorem mem_blk (t : Fin cfg0.N) (i : S2048x4096.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v1).slice (win0_4.rect t)).set ↔ _
  rw [View.set_slice_whole, Rect.mem_set_unit]
  exact Iff.rfl

/-- Every index of the array is in the block of the last point of its tile's run. -/
theorem cover (i : S2048x4096.Idx) :
    ∃ t : Fin cfg0.N, (cfg0.win 4).flush t = true ∧ i ∈ ((cfg0.win 4).blk t).view.set := by
  have hi0 : (i 0).val < 2048 := idx2_lt0 i
  have hi1 : (i 1).val < 4096 := idx2_lt1 i
  have hlt : (i 0).val / 512 * 16 + (i 1).val / 1024 * 4 + 3 < cfg0.N :=
    lt_of_lt_of_eq (by omega : (i 0).val / 512 * 16 + (i 1).val / 1024 * 4 + 3 < 64) (show cfg0.N = 64 from N_0).symm
  obtain ⟨-, -, -, -, -, -, -, -, e0, e1⟩ := idx_facts ⟨_, hlt⟩
  have e0' : win0_4.index ⟨_, hlt⟩ (0 : Fin 2) = ((i 0).val / 512 * 16 + (i 1).val / 1024 * 4 + 3) / 16 := e0
  have e1' : win0_4.index ⟨_, hlt⟩ (1 : Fin 2) = ((i 0).val / 512 * 16 + (i 1).val / 1024 * 4 + 3) / 4 % 4 := e1
  refine ⟨⟨_, hlt⟩, (flush0_4 _).mpr (by show ((i 0).val / 512 * 16 + (i 1).val / 1024 * 4 + 3) % 4 = 3; omega), ?_⟩
  rw [mem_blk]
  intro a
  match a with
  | ⟨0, _⟩ =>
    show win0_4.index ⟨_, hlt⟩ (0 : Fin 2) * 512 ≤ (i 0).val ∧ (i 0).val < win0_4.index ⟨_, hlt⟩ (0 : Fin 2) * 512 + 512
    omega
  | ⟨1, _⟩ =>
    show win0_4.index ⟨_, hlt⟩ (1 : Fin 2) * 1024 ≤ (i 1).val ∧ (i 1).val < win0_4.index ⟨_, hlt⟩ (1 : Fin 2) * 1024 + 1024
    omega

/-- After the run the output array is the masked dense layer of the arguments. -/
theorem final (c : Dev nD) : (dats m 0 c).arrAt 4 cfg0.N = result m c :=
  (dats m 0 c).arrAt_eq_of_cover 4 (result m c) (fun t hf => flushed_eq m c t hf) cover

/-- The run, with the output array named. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.lean ====
/- A dense layer whose weights are masked: `out = x · keep + b`, where `keep` is the weight matrix with zero put wherever
   the mask is zero, `x` is 2048 × 4096, mask and weights 4096 × 4096, the bias a vector of 4096.

   The reference selects the kept weights, takes the whole product in one contraction over 4096 positions and adds the
   bias broadcast along the rows. The kernel tiles the result 512 × 1024 and walks the contraction in four stretches of
   1024: it zeroes an accumulator at a tile's first stretch, adds each stretch's product of the `x` block with the
   selected weight block (the operands first narrowed to a shorter float format, which changes nothing at the ideal
   values), and at the last stretch writes the accumulator plus the bias block out. At the ideal values both are
   `∑ k, x[r, k] · keep[k, col] + b[col]`: the kernel's is that sum taken as zero plus four consecutive partial sums, equal
   to the whole sum because addition of extended reals is commutative and associative. Nothing here needs the inputs
   finite. The two spellings of "mask differs from zero" (ordered in the kernel, unordered in the reference) are one test
   on the extended reals.

   The three programs' runs and the unchanged arguments come from the generated frames and the reference's generated run;
   the kernel was idealized without any rewrite, so that conjunct is trivial. -/
import proofs.«137590_j68899865362757_1_alg».proof.Defs
import proofs.«137590_j68899865362757_1_alg».proof.Proof.Gen.Kernel
import proofs.«137590_j68899865362757_1_alg».proof.Proof.Gen.Kernel.Skeleton
import proofs.«137590_j68899865362757_1_alg».proof.Proof.Gen.Kernel.Launch
import proofs.«137590_j68899865362757_1_alg».proof.Proof.Gen.Kernel.Points
import proofs.«137590_j68899865362757_1_alg».proof.Proof.Gen.Kernel.Frame
import proofs.«137590_j68899865362757_1_alg».proof.Proof.Gen.KernelIdeal
import proofs.«137590_j68899865362757_1_alg».proof.Proof.Gen.KernelIdeal.Skeleton
import proofs.«137590_j68899865362757_1_alg».proof.Proof.Gen.KernelIdeal.Launch
import proofs.«137590_j68899865362757_1_alg».proof.Proof.Gen.KernelIdeal.Points
import proofs.«137590_j68899865362757_1_alg».proof.Proof.Gen.KernelIdeal.Frame
import proofs.«137590_j68899865362757_1_alg».proof.Proof.Gen.ReferenceIdeal
import proofs.«137590_j68899865362757_1_alg».proof.Proof.Gen.Pre_finite_inputs
import proofs.«137590_j68899865362757_1_alg».proof.Proof.Gen.KernelIdeal.Value
import proofs.«137590_j68899865362757_1_alg».proof.Proof.Gen.ReferenceIdeal.Run
import proofs.«137590_j68899865362757_1_alg».proof.Proof.Gen.ReferenceIdeal.Read
import proofs.«137590_j68899865362757_1_alg».proof.Proof.RefIsSpec
import proofs.«137590_j68899865362757_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's output array and the reference's result are both the masked dense layer
    of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_is_dense, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
